-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S256x512 : Shape := ⟨2, ![256, 512]⟩
abbrev S512x1024 : Shape := ⟨2, ![512, 1024]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x1024 : S_.BroadcastsInDim S512x1024 (![] : Fin 0 → Fin S512x1024.rank)
  reducesTo_S512x1024_S_d0_1 : S512x1024.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg2 : IVec S131072 32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_c_6 : IVec S_ 32 := constantI S_ 32 0#32
  let main_v19 : IVec S131072 32 := broadcastInDim S131072 ![] bcast_S_S131072 main_c_6
  let main_v20 : IVec S131072 1 := cmpi .sge main_arg2 main_v19
  let main_c_7 : IVec S_ 32 := constantI S_ 32 8#32
  let main_v21 : IVec S131072 32 := broadcastInDim S131072 ![] bcast_S_S131072 main_c_7
  let main_v22 : IVec S131072 1 := cmpi .slt main_arg2 main_v21
  let main_v23 : IVec S131072 1 := andi main_v20 main_v22
  let main_c_8 : IVec S_ 1 := constantI S_ 1 1#1
  let main_v24 : IVec S_ 1 := (fun x v => Host.reduce IntOp.andi x v reducesTo_S131072_S_d0 h_S_) main_v23 main_c_8
  let main_v25 : IVec S_ 1 := andi main_v18 main_v24
  main_v25

def fn {F : FTy → Type} [FloatOps F] (main_arg0 : FVec F S131072x256 .f32) (main_arg1 : FVec F S131072x256 .f32) (main_arg2 : IVec S131072 32) (main_arg3 : FVec F S256x512 .f32) (main_arg4 : FVec F S512x1024 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg2 main_v13 main_v16
-- ==== Kernel.lean ====
abbrev S131072x256 : Shape := ⟨2, ![131072, 256]⟩
abbrev S131072 : Shape := ⟨1, ![131072]⟩
abbrev S256x512 : Shape := ⟨2, ![256, 512]⟩
abbrev S512x1024 : Shape := ⟨2, ![512, 1024]⟩
abbrev S131072x2x128 : Shape := ⟨3, ![131072, 2, 128]⟩
abbrev S131072x2x256 : Shape := ⟨3, ![131072, 2, 256]⟩
abbrev S262144x256 : Shape := ⟨2, ![262144, 256]⟩
abbrev S131072x2 : Shape := ⟨2, ![131072, 2]⟩
abbrev S262144 : Shape := ⟨1, ![262144]⟩
abbrev S262144x1 : Shape := ⟨2, ![262144, 1]⟩
abbrev S1x8 : Shape := ⟨2, ![1, 8]⟩
abbrev S262144x8 : Shape := ⟨2, ![262144, 8]⟩
abbrev S262144x128 : Shape := ⟨2, ![262144, 128]⟩
abbrev S1024x256 : Shape := ⟨2, ![1024, 256]⟩
abbrev S1024x8 : Shape := ⟨2, ![1024, 8]⟩
abbrev S1024x128 : Shape := ⟨2, ![1024, 128]⟩
abbrev S1024x512 : Shape := ⟨2, ![1024, 512]⟩
abbrev S1024x1024 : Shape := ⟨2, ![1024, 1024]⟩
abbrev S1024x8x128 : Shape := ⟨3, ![1024, 8, 128]⟩
abbrev S1024x8x1 : Shape := ⟨3, ![1024, 8, 1]⟩

abbrev nBuf : Space → Nat
  | .hbm => 22
  | .vmem => 8
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072, .i32⟩
  | .hbm, ⟨3, _⟩ => ⟨S256x512, .f32⟩
  | .hbm, ⟨4, _⟩ => ⟨S512x1024, .f32⟩
  | .hbm, ⟨5, _⟩ => ⟨S131072x2x128, .f32⟩
  | .hbm, ⟨6, _⟩ => ⟨S131072x2x128, .f32⟩
  | .hbm, ⟨7, _⟩ => ⟨S131072x2x256, .f32⟩
  | .hbm, ⟨8, _⟩ => ⟨S262144x256, .f32⟩
  | .hbm, ⟨9, _⟩ => ⟨S262144x256, .bf16⟩
  | .hbm, ⟨10, _⟩ => ⟨S131072x2, .i32⟩
  | .hbm, ⟨11, _⟩ => ⟨S262144, .i32⟩
  | .hbm, ⟨12, _⟩ => ⟨S262144x1, .i32⟩
  | .hbm, ⟨13, _⟩ => ⟨S1x8, .i32⟩
  | .hbm, ⟨14, _⟩ => ⟨S262144x8, .i32⟩
  | .hbm, ⟨15, _⟩ => ⟨S262144x8, .i32⟩
  | .hbm, ⟨16, _⟩ => ⟨S262144x8, .i1⟩
  | .hbm, ⟨17, _⟩ => ⟨S262144x8, .f32⟩
  | .hbm, ⟨18, _⟩ => ⟨S256x512, .bf16⟩
  | .hbm, ⟨19, _⟩ => ⟨S512x1024, .bf16⟩
  | .hbm, ⟨20, _⟩ => ⟨S262144x128, .f32⟩
  | .hbm, ⟨21, _⟩ => ⟨S131072x2x128, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S512x1024, .bf16⟩
  | .local _ .vmem, ⟨4, _⟩ => ⟨S1024x8, .f32⟩
  | .local _ .vmem, ⟨5, _⟩ => ⟨S1024x8, .f32⟩
  | .local _ .vmem, ⟨6, _⟩ => ⟨S1024x128, .f32⟩
  | .local _ .vmem, ⟨7, _⟩ => ⟨S1024x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S131072x256_S131072x2x128 : S131072x256.ShapeCasts S131072x2x128
  concatenates_S131072x2x128_S131072x2x128_S131072x2x256_d2 : Shape.Concatenates [S131072x2x128, S131072x2x128] S131072x2x256 2
  shapeCasts_S131072x2x256_S262144x256 : S131072x2x256.ShapeCasts S262144x256
  bitsLt_bf16_f32 : FTy.bits .bf16 < FTy.bits .f32
  bcast_S131072_S131072x2_0 : S131072.BroadcastsInDim S131072x2 (![0] : Fin 1 → Fin S131072x2.rank)
  shapeCasts_S131072x2_S262144 : S131072x2.ShapeCasts S262144
  bcast_S262144_S262144x1_0 : S262144.BroadcastsInDim S262144x1 (![0] : Fin 1 → Fin S262144x1.rank)
  bcast_S262144x1_S262144x8_0_1 : S262144x1.BroadcastsInDim S262144x8 (![0, 1] : Fin 2 → Fin S262144x8.rank)
  bcast_S1x8_S262144x8_0_1 : S1x8.BroadcastsInDim S262144x8 (![0, 1] : Fin 2 → Fin S262144x8.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S1024x8x128 : S1024x1024.ShapeCasts S1024x8x128
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  shapeCasts_S1024x8_S1024x8x1 : S1024x8.ShapeCasts S1024x8x1
  broadcasts_S1024x8x1_S1024x8x128 : S1024x8x1.Broadcasts S1024x8x128
  reduces_S1024x8x128_S1024x128 : S1024x8x128.Reduces [1] S1024x128
  inb_S1024x128_S1024x128_0_0 : ∀ a, (![0, 0] : Fin 2 → Nat) a + S1024x128.size a ≤ S1024x128.size a
  h_S1024x128 : 0 < S1024x128.numel
  shapeCasts_S262144x128_S131072x2x128 : S262144x128.ShapeCasts S131072x2x128
  dot_S1024x256_S256x512_S1024x512_1_0_0_1_n_n_wf : DotDims.WF S1024x256 S256x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S262144x256.size a
  hwx0_0 : ∀ i : grid0.Coords, EltTy.bits .bf16 = 32 ∨ (Rect.block (s := S262144x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S262144x8.size a
  hwx0_3 : ∀ i : grid0.Coords, EltTy.bits .f32 = 32 ∨ (Rect.block (s := S262144x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S262144x128.size a
  hwx0_4 : ∀ i : grid0.Coords, EltTy.bits .f32 = 32 ∨ (Rect.block (s := S262144x128) S1024x128.size (cc0_transform_4 i) (hinb0_4 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v4) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S256x512 : Shape := ⟨2, ![256, 512]⟩
abbrev S512x1024 : Shape := ⟨2, ![512, 1024]⟩
abbrev S131072x2x128 : Shape := ⟨3, ![131072, 2, 128]⟩
abbrev S131072x2x256 : Shape := ⟨3, ![131072, 2, 256]⟩
abbrev S131072x2x512 : Shape := ⟨3, ![131072, 2, 512]⟩
abbrev S_ : Shape := ⟨0, ![]⟩
abbrev S131072x2x1024 : Shape := ⟨3, ![131072, 2, 1024]⟩
abbrev S131072x2x8x128 : Shape := ⟨4, ![131072, 2, 8, 128]⟩
abbrev S131072x1x1x1 : Shape := ⟨4, ![131072, 1, 1, 1]⟩
abbrev S131072x1x1 : Shape := ⟨3, ![131072, 1, 1]⟩
abbrev S1 : Shape := ⟨1, ![1]⟩
abbrev S1x1x1 : Shape := ⟨3, ![1, 1, 1]⟩
abbrev S131072x1 : Shape := ⟨2, ![131072, 1]⟩
abbrev S131072x2x1x128 : Shape := ⟨4, ![131072, 2, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072, .i32⟩
  | .hbm, ⟨3, _⟩ => ⟨S256x512, .f32⟩
  | .hbm, ⟨4, _⟩ => ⟨S512x1024, .f32⟩
  | .hbm, ⟨5, _⟩ => ⟨S131072x2x128, .f32⟩
  | .hbm, ⟨6, _⟩ => ⟨S131072x2x128, .f32⟩
  | .hbm, ⟨7, _⟩ => ⟨S131072x2x256, .f32⟩
  | .hbm, ⟨8, _⟩ => ⟨S131072x2x512, .f32⟩
  | .hbm, ⟨9, _⟩ => ⟨S_, .f32⟩
  | .hbm, ⟨10, _⟩ => ⟨S131072x2x512, .f32⟩
  | .hbm, ⟨11, _⟩ => ⟨S131072x2x512, .f32⟩
  | .hbm, ⟨12, _⟩ => ⟨S131072x2x1024, .f32⟩
  | .hbm, ⟨13, _⟩ => ⟨S131072x2x8x128, .f32⟩
  | .hbm, ⟨14, _⟩ => ⟨S131072x1x1x1, .i32⟩
  | .hbm, ⟨15, _⟩ => ⟨S_, .i32⟩
  | .hbm, ⟨16, _⟩ => ⟨S131072x1x1x1, .i32⟩
  | .hbm, ⟨17, _⟩ => ⟨S131072x1x1x1, .i1⟩
  | .hbm, ⟨18, _⟩ => ⟨S_, .i32⟩
  | .hbm, ⟨19, _⟩ => ⟨S131072x1x1x1, .i32⟩
  | .hbm, ⟨20, _⟩ => ⟨S131072x1x1x1, .i32⟩
  | .hbm, ⟨21, _⟩ => ⟨S131072x1x1x1, .i32⟩
  | .hbm, ⟨22, _⟩ => ⟨S131072x1x1, .i32⟩
  | .hbm, ⟨23, _⟩ => ⟨S1, .i32⟩
  | .hbm, ⟨24, _⟩ => ⟨S_, .i32⟩
  | .hbm, ⟨25, _⟩ => ⟨S131072x1x1, .i32⟩
  | .hbm, ⟨26, _⟩ => ⟨S131072x1x1, .i1⟩
  | .hbm, ⟨27, _⟩ => ⟨S1x1x1, .i32⟩
  | .hbm, ⟨28, _⟩ => ⟨S131072x1x1, .i32⟩
  | .hbm, ⟨29, _⟩ => ⟨S131072x1x1, .i1⟩
  | .hbm, ⟨30, _⟩ => ⟨S131072x1x1, .i1⟩
  | .hbm, ⟨31, _⟩ => ⟨S_, .i1⟩
  | .hbm, ⟨32, _⟩ => ⟨S131072x1, .i1⟩
  | .hbm, ⟨33, _⟩ => ⟨S131072x2x1x128, .f32⟩
  | .hbm, ⟨34, _⟩ => ⟨S131072x2x1x128, .i1⟩
  | .hbm, ⟨35, _⟩ => ⟨S_, .f32⟩
  | .hbm, ⟨36, _⟩ => ⟨S131072x2x1x128, .f32⟩
  | .hbm, ⟨37, _⟩ => ⟨S131072x2x1x128, .f32⟩
  | .hbm, ⟨38, _⟩ => ⟨S131072x2x128, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v8 : Ref sig .tc := ⟨.hbm, 37, rfl⟩
abbrev main_v9 : Ref sig .tc := ⟨.hbm, 38, rfl⟩

abbrev nD : Nat := 1
abbrev τ : Topo := Topo.v7x

variable {F : FTy → Type} [FloatOps F]

class Facts₀ : Prop where
  shapeCasts_S131072x256_S131072x2x128 : S131072x256.ShapeCasts S131072x2x128
  concatenates_S131072x2x128_S131072x2x128_S131072x2x256_d2 : Shape.Concatenates [S131072x2x128, S131072x2x128] S131072x2x256 2
  bcast_S_S131072x2x512 : S_.BroadcastsInDim S131072x2x512 (![] : Fin 0 → Fin S131072x2x512.rank)
  shapeCasts_S131072x2x1024_S131072x2x8x128 : S131072x2x1024.ShapeCasts S131072x2x8x128
  bcast_S131072_S131072x1x1x1_0 : S131072.BroadcastsInDim S131072x1x1x1 (![0] : Fin 1 → Fin S131072x1x1x1.rank)
  bcast_S_S131072x1x1x1 : S_.BroadcastsInDim S131072x1x1x1 (![] : Fin 0 → Fin S131072x1x1x1.rank)
  shapeCasts_S131072x1x1x1_S131072x1x1 : S131072x1x1x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  h_S_ : 0 < S_.numel
  bcast_S131072x1_S131072x2x1x128_0_2 : S131072x1.BroadcastsInDim S131072x2x1x128 (![0, 2] : Fin 2 → Fin S131072x2x1x128.rank)
  bcast_S_S131072x2x1x128 : S_.BroadcastsInDim S131072x2x1x128 (![] : Fin 0 → Fin S131072x2x1x128.rank)
  shapeCasts_S131072x2x1x128_S131072x2x128 : S131072x2x1x128.ShapeCasts S131072x2x128
  dot_S131072x2x256_S256x512_S131072x2x512_2_0_01_1_n_n_wf : DotDims.WF S131072x2x256 S256x512 S131072x2x512 [2] [0] [0, 1] [1] [] []
  dot_S131072x2x512_S512x1024_S131072x2x1024_2_0_01_1_n_n_wf : DotDims.WF S131072x2x512 S512x1024 S131072x2x1024 [2] [0] [0, 1] [1] [] []
  gather_S131072x2x8x128_S131072x1x1_S131072x2x1x128_13_2_0_0_2_2_121128_wf : GatherDims.WF S131072x2x8x128 S131072x1x1 S131072x2x1x128 [1, 3] [2] [0] [2] [0] 2 ![1, 2, 1, 128]

variable [Facts₀]

def dot_S131072x2x256_S256x512_S131072x2x512_2_0_01_1_n_n : DotDims S131072x2x256 S256x512 S131072x2x512 where
  lhsContracting := [2]
  rhsContracting := [0]
  lhsNonContracting := [0, 1]
  rhsNonContracting := [1]
  lhsBatch := []
  rhsBatch := []
  wf := dot_S131072x2x256_S256x512_S131072x2x512_2_0_01_1_n_n_wf
def dot_S131072x2x512_S512x1024_S131072x2x1024_2_0_01_1_n_n : DotDims S131072x2x512 S512x1024 S131072x2x1024 where
  lhsContracting := [2]
  rhsContracting := [0]
  lhsNonContracting := [0, 1]
  rhsNonContracting := [1]
  lhsBatch := []
  rhsBatch := []
  wf := dot_S131072x2x512_S512x1024_S131072x2x1024_2_0_01_1_n_n_wf
def gather_S131072x2x8x128_S131072x1x1_S131072x2x1x128_13_2_0_0_2_2_121128 : GatherDims S131072x2x8x128 S131072x1x1 S131072x2x1x128 where
  offsetDims := [1, 3]
  collapsedSliceDims := [2]
  operandBatchingDims := [0]
  startIndicesBatchingDims := [0]
  startIndexMap := [2]
  indexVectorDim := 2
  sliceSizes := ![1, 2, 1, 128]
  wf := gather_S131072x2x8x128_S131072x1x1_S131072x2x1x128_13_2_0_0_2_2_121128_wf

class Facts : Prop extends Facts₀ where

variable [Facts]
-- ==== Proof.Spec.lean ====
/-
  The function both programs compute, index by index, on the extended reals.

  Row (e, d) of the input is the 256-vector `A e d ·` (the two 128-halves taken from the two embedding
  tables). A two-layer perceptron without bias is applied to it: the hidden unit m is
  max (∑ i, A e d i · W1 i m) 0, output channel o is ∑ m, hidden m · W2 m o, for o < 1024 = 8 · 128.
  The result keeps, of the eight 128-wide groups of output channels, the group named by the edge's type:
  out e d k = mlp e d (type e · 128 + k).

  Selecting one group of eight by a one-hot weight vector is the same thing: ∑ t, x t · [t = s] = x s on the
  extended reals (a product with 0 is 0 there, at the infinities too, and a sum of zeros and one term is that term).
-/
import Idealize.ShloMosaic.PureOps.Ideal
import Idealize.ShloMosaic.Lib.ValueIdx

noncomputable section

open scoped BigOperators

namespace Cert.MlpSelect

open Idealize.ShloMosaic Idealize.ShloMosaic.ValueIdx

/-- The rows fed to the perceptron: [edge, copy, channel]. -/
abbrev Rows : Shape := ⟨3, ![131072, 2, 256]⟩
abbrev W1s : Shape := ⟨2, ![256, 512]⟩
abbrev W2s : Shape := ⟨2, ![512, 1024]⟩

/-- The zero the rectifier compares with, kept as the float word both programs print. -/
abbrev zero : EReal := Ideal.ofBits .f32 0x00000000#32

/-- Hidden unit `m` of row (e, d): the rectified inner product of the row with column `m` of `W1`. -/
def hidden (A : Rows.Idx → EReal) (W1 : W1s.Idx → EReal) (e : Fin 131072) (d : Fin 2) (m : Fin 512) : EReal :=
  max (∑ i : Fin 256, A (ix3 e d i) * W1 (ix2 i m)) zero

/-- Output channel `o` of row (e, d): the inner product of the hidden layer with column `o` of `W2`. -/
def mlp (A : Rows.Idx → EReal) (W1 : W1s.Idx → EReal) (W2 : W2s.Idx → EReal) (e : Fin 131072) (d : Fin 2) (o : Fin 1024) : EReal :=
  ∑ m : Fin 512, hidden A W1 e d m * W2 (ix2 m o)

/-- Channel `k` of group `s` among the eight groups of 128 output channels. -/
def chan (s : Fin 8) (k : Fin 128) : Fin 1024 := ⟨s.val * 128 + k.val, by have := s.isLt; have := k.isLt; omega⟩

/-- The result: of row (e, d)'s 1024 output channels, the 128 of the group the edge's type names. -/
def selected (A : Rows.Idx → EReal) (W1 : W1s.Idx → EReal) (W2 : W2s.Idx → EReal) (ty : Fin 131072 → Fin 8)
    (e : Fin 131072) (d : Fin 2) (k : Fin 128) : EReal :=
  mlp A W1 W2 e d (chan (ty e) k)

/-- The result array [edge, copy, channel]. -/
abbrev Outs : Shape := ⟨3, ![131072, 2, 128]⟩

/-- The whole result as one function of the joined rows, the two weight matrices and the edges' groups. -/
def outArr (A : Rows.Idx → EReal) (W1 : W1s.Idx → EReal) (W2 : W2s.Idx → EReal) (ty : Fin 131072 → Fin 8) : Outs.Idx → EReal :=
  fun i => selected A W1 W2 ty ⟨(i 0).val, (i 0).isLt⟩ ⟨(i 1).val, (i 1).isLt⟩ ⟨(i 2).val, (i 2).isLt⟩

theorem outArr_ix3 (A : Rows.Idx → EReal) (W1 : W1s.Idx → EReal) (W2 : W2s.Idx → EReal) (ty : Fin 131072 → Fin 8)
    (e : Fin 131072) (d : Fin 2) (k : Fin 128) : outArr A W1 W2 ty (ix3 e d k) = selected A W1 W2 ty e d k := rfl

/-- A one-hot weighted sum over the eight groups picks the group: ∑ t, x t · [t = s] = x s. The weights are the
    extended reals 0 and 1, so every product but one is 0 and the remaining one is `x s` itself. -/
theorem onehot_sum (x : Fin 8 → EReal) (w : Fin 8 → EReal) (s : Fin 8) (hw : ∀ t, w t = if t = s then 1 else 0) :
    ∑ t : Fin 8, x t * w t = x s := by
  rw [Finset.sum_eq_single s]
  · rw [hw s, if_pos rfl, mul_one]
  · intro t _ hts
    rw [hw t, if_neg hts, mul_zero]
  · intro h; exact absurd (Finset.mem_univ s) h

end Cert.MlpSelect

end
-- ==== Proof.TypeWord.lean ====
/-
  Facts about one 32-bit word w with 0 ≤ w < 8 read signed (an edge's type).

  Such a word is below 8 read unsigned too. So the reference's wrap of negative indices leaves it alone (w < 0 is false),
  its range test 0 ≤ w ≤ 7 holds, and the gather's clamp of the start index into [0, 7] returns w itself; and the kernel's
  weight for group t, the comparison w = t converted to a float, is 1 when t is w and 0 otherwise.
-/
import Idealize.ShloMosaic.PureOps.Ideal
import Idealize.ShloMosaic.Lib.ValueIdx
import Idealize.ShloMosaic.Lib.StableHlo.Predicate

noncomputable section

namespace Cert.MlpSelect.Word

open Idealize.ShloMosaic Idealize.ShloMosaic.StableHlo.Predicate

/-- The range the precondition states of every edge type, as the two printed comparisons. -/
structure InRange (w : BitVec 32) : Prop where
  ge : IntOp.cmpi .sge w 0#32 = 1#1
  lt : IntOp.cmpi .slt w 8#32 = 1#1

theorem toNat_lt {w : BitVec 32} (h : InRange w) : w.toNat < 8 := by
  have h0 : (0#32 : BitVec 32).toInt ≤ w.toInt := by
    have := h.ge; unfold IntOp.cmpi at this
    simpa [ofBool_eq_one_iff, BitVec.sle] using this
  have h8 : w.toInt < (8#32 : BitVec 32).toInt := by
    have := h.lt; unfold IntOp.cmpi at this
    simpa [ofBool_eq_one_iff, BitVec.slt] using this
  have e0 : (0#32 : BitVec 32).toInt = 0 := by decide
  have e8 : (8#32 : BitVec 32).toInt = 8 := by decide
  rw [e0] at h0; rw [e8] at h8
  have hw := w.isLt
  rw [BitVec.toInt_eq_toNat_cond] at h0 h8
  split at h0 <;> omega

theorem toNat_lt31 {w : BitVec 32} (h : InRange w) : w.toNat < 2 ^ 31 := by have := toNat_lt h; omega

/-- The group a word names: its value modulo 8 (the value itself when the word is in range). -/
def grpOf (w : BitVec 32) : Fin 8 := ⟨w.toNat % 8, Nat.mod_lt _ (by decide)⟩

theorem grpOf_val {w : BitVec 32} (h : InRange w) : (grpOf w).val = w.toNat := Nat.mod_eq_of_lt (toNat_lt h)

/-- w < 0 is false. -/
theorem slt_zero {w : BitVec 32} (h : InRange w) : IntOp.cmpi .slt w 0#32 = 0#1 :=
  ValueIdx.eq_zero_of_ne_one fun e => by
    have := (slt_iff_toNat (toNat_lt31 h) (by decide)).mp e
    exact absurd this (Nat.not_lt_zero _)

/-- 0 ≤ w holds (the precondition's own comparison). -/
theorem sge_zero {w : BitVec 32} (h : InRange w) : IntOp.cmpi .sge w 0#32 = 1#1 := h.ge

/-- w ≤ 7 holds. -/
theorem sle_seven {w : BitVec 32} (h : InRange w) : IntOp.cmpi .sle w 7#32 = 1#1 :=
  (sle_iff_toNat (toNat_lt31 h) (by decide)).mpr (by
    have := toNat_lt h
    show w.toNat ≤ 7
    omega)

/-- Read signed and clamped into [0, 7], the word is itself. -/
theorem clamp_eq {w : BitVec 32} (h : InRange w) : min w.toInt.toNat 7 = (grpOf w).val := by
  rw [toInt_eq_toNat_of_lt (toNat_lt31 h), Int.toNat_natCast, grpOf_val h]
  have := toNat_lt h
  omega

/-- The comparison of the type with group t, converted to a float at the ideal instance, is the indicator of t = w. -/
theorem onehot {w : BitVec 32} (h : InRange w) (t : Fin 8) :
    (FloatOps.uitofp (F := Ideal) .f32 (IntOp.cmpi .eq w (BitVec.ofNat 32 t.val)) : EReal) = if t = grpOf w then 1 else 0 := by
  by_cases e : t = grpOf w
  · rw [if_pos e]
    have : IntOp.cmpi .eq w (BitVec.ofNat 32 t.val) = 1#1 := cmpi_eq_iff.mpr (by
      subst e
      apply BitVec.eq_of_toNat_eq
      have := toNat_lt h
      rw [grpOf_val h]
      simp only [BitVec.toNat_ofNat]
      omega)
    rw [this]
    show (((1#1 : BitVec 1).toNat : ℝ) : EReal) = 1
    norm_num
  · rw [if_neg e]
    have : IntOp.cmpi .eq w (BitVec.ofNat 32 t.val) = 0#1 := ValueIdx.eq_zero_of_ne_one fun e1 => e (by
      have hw := cmpi_eq_iff.mp e1
      apply Fin.ext
      rw [grpOf_val h, hw]
      have := t.isLt
      simp only [BitVec.toNat_ofNat]
      omega)
    rw [this]
    show (((0#1 : BitVec 1).toNat : ℝ) : EReal) = 0
    norm_num

end Cert.MlpSelect.Word

end
-- ==== Proof.RefValue.lean ====
/-
  The reference's result at (edge e, copy d, channel k), when every edge type lies in [0, 8).

  The reference adds 8 to a negative type, tests the result against [0, 7], gathers along the group axis at the (clamped)
  type, and puts NaN where the test failed. For a type w in [0, 8) nothing of that binds: w is not negative, the test
  holds, the clamp returns w. What is left is the perceptron's output channel w·128 + k of row (e, d): the gather reads
  the [edge, copy, group, channel] cast of the 1024 output channels at group w, and that cast is (s, k) ↦ s·128 + k.
-/
import proofs.«431208_j50955492000253_1_alg».proof.Proof.RefRead
import proofs.«431208_j50955492000253_1_alg».proof.Proof.Spec
import proofs.«431208_j50955492000253_1_alg».proof.Proof.TypeWord

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.ValueIdx
open Cert.MlpSelect (zero chan mlp selected outArr)
open Cert.MlpSelect.Word (InRange grpOf)

/-! ## The gather's operand index, axis by axis -/

/-- Axis 0 (the edge) is a batching axis: the result's edge. -/
theorem op0 (j : S131072x2x1x128.Idx) (idx : IVec S131072x1x1 32) : (gather_S131072x2x8x128_S131072x1x1_S131072x2x1x128_13_2_0_0_2_2_121128.operandIdx j idx 0).val = (j 0).val := by
  show gather_S131072x2x8x128_S131072x1x1_S131072x2x1x128_13_2_0_0_2_2_121128.start j idx 0 + gather_S131072x2x8x128_S131072x1x1_S131072x2x1x128_13_2_0_0_2_2_121128.batchCoord j 0 + gather_S131072x2x8x128_S131072x1x1_S131072x2x1x128_13_2_0_0_2_2_121128.offCoord j 0 = _
  rw [GatherDims.start_batching _ _ _ _ (by decide), GatherDims.offCoord_eq_zero _ _ _ (by decide)]
  unfold GatherDims.batchCoord
  rw [dif_pos (by decide)]
  unfold GatherDims.siCoord
  simp only [Nat.zero_add, Nat.add_zero, Fin.cast_mk, Fin.val_cast]
  rfl

/-- Axis 1 (the copy) is a slice axis taken whole: the result's copy. -/
theorem op1 (j : S131072x2x1x128.Idx) (idx : IVec S131072x1x1 32) : (gather_S131072x2x8x128_S131072x1x1_S131072x2x1x128_13_2_0_0_2_2_121128.operandIdx j idx 1).val = (j 1).val := by
  show gather_S131072x2x8x128_S131072x1x1_S131072x2x1x128_13_2_0_0_2_2_121128.start j idx 1 + gather_S131072x2x8x128_S131072x1x1_S131072x2x1x128_13_2_0_0_2_2_121128.batchCoord j 1 + gather_S131072x2x8x128_S131072x1x1_S131072x2x1x128_13_2_0_0_2_2_121128.offCoord j 1 = _
  rw [GatherDims.batchCoord_eq_zero _ _ _ (by decide)]
  unfold GatherDims.start
  rw [dif_neg (by decide)]
  unfold GatherDims.offCoord
  rw [dif_pos (by decide)]
  simp only [Nat.zero_add, Nat.add_zero]
  rfl

/-- Axis 3 (the channel) likewise: the result's channel. -/
theorem op3 (j : S131072x2x1x128.Idx) (idx : IVec S131072x1x1 32) : (gather_S131072x2x8x128_S131072x1x1_S131072x2x1x128_13_2_0_0_2_2_121128.operandIdx j idx 3).val = (j 3).val := by
  show gather_S131072x2x8x128_S131072x1x1_S131072x2x1x128_13_2_0_0_2_2_121128.start j idx 3 + gather_S131072x2x8x128_S131072x1x1_S131072x2x1x128_13_2_0_0_2_2_121128.batchCoord j 3 + gather_S131072x2x8x128_S131072x1x1_S131072x2x1x128_13_2_0_0_2_2_121128.offCoord j 3 = _
  rw [GatherDims.batchCoord_eq_zero _ _ _ (by decide)]
  unfold GatherDims.start
  rw [dif_neg (by decide)]
  unfold GatherDims.offCoord
  rw [dif_pos (by decide)]
  simp only [Nat.zero_add, Nat.add_zero]
  rfl

/-- Where the start index of result index j is read: the edge's one entry. -/
def startAt (j : S131072x2x1x128.Idx) : S131072x1x1.Idx := fun a => match a with
  | ⟨0, _⟩ => ⟨(j 0).val, (j 0).isLt⟩
  | ⟨1, _⟩ => ⟨0, Nat.one_pos⟩
  | ⟨2, _⟩ => ⟨0, Nat.one_pos⟩

/-- Axis 2 (the group) is the collapsed axis the start index names: the start index, read signed and clamped into [0, 7]. -/
theorem op2 (j : S131072x2x1x128.Idx) (idx : IVec S131072x1x1 32) :
    (gather_S131072x2x8x128_S131072x1x1_S131072x2x1x128_13_2_0_0_2_2_121128.operandIdx j idx 2).val = min (idx (startAt j)).toInt.toNat 7 := by
  show gather_S131072x2x8x128_S131072x1x1_S131072x2x1x128_13_2_0_0_2_2_121128.start j idx 2 + gather_S131072x2x8x128_S131072x1x1_S131072x2x1x128_13_2_0_0_2_2_121128.batchCoord j 2 + gather_S131072x2x8x128_S131072x1x1_S131072x2x1x128_13_2_0_0_2_2_121128.offCoord j 2 = _
  rw [GatherDims.batchCoord_eq_zero _ _ _ (by decide), GatherDims.offCoord_eq_zero _ _ _ (by decide)]
  simp only [Nat.add_zero]
  unfold GatherDims.start
  rw [dif_pos (by decide)]
  have hs : gather_S131072x2x8x128_S131072x1x1_S131072x2x1x128_13_2_0_0_2_2_121128.siIdx j ⟨List.idxOf (2 : Fin 4) gather_S131072x2x8x128_S131072x1x1_S131072x2x1x128_13_2_0_0_2_2_121128.startIndexMap, List.idxOf_lt_length_iff.2 (by decide)⟩ = startAt j := by
    funext b; refine Fin.ext ?_
    match b with
    | ⟨0, _⟩ =>
      unfold GatherDims.siIdx
      rw [dif_neg (by decide +revert)]
      unfold GatherDims.siCoord
      simp only [Fin.cast_mk, Fin.val_cast]
      rfl
    | ⟨1, _⟩ =>
      unfold GatherDims.siIdx
      rw [dif_neg (by decide +revert)]
      unfold GatherDims.siCoord
      simp only [Fin.cast_mk, Fin.val_cast]
      show (j 2).val = 0
      have h2 : (j 2).val < 1 := (j 2).isLt
      omega
    | ⟨2, _⟩ =>
      unfold GatherDims.siIdx
      rw [dif_pos (by decide +revert)]
      rfl
  rw [hs]
  rfl

/-! ## The reference's stages at the indices the result reads -/

/-- A conjunction of ones, started from one, is one. -/
theorem foldl_andi_one {ι : Type} (x : ι → BitVec 1) (l : List ι) (r0 : BitVec 1) (h0 : r0 = 1#1) (hx : ∀ n ∈ l, x n = 1#1) :
    l.foldl (fun r n => IntOp.andi r (x n)) r0 = 1#1 := by
  induction l generalizing r0 with
  | nil => exact h0
  | cons n l ih =>
    rw [List.foldl_cons]
    refine ih _ ?_ (fun k hk => hx k (List.mem_cons_of_mem _ hk))
    rw [h0, hx n (List.mem_cons_self ..)]
    rfl

section Stages

variable (x0 x1 : (⟨S131072x256, .f32⟩ : BufTy).Contents (Elt Ideal)) (x2 : (⟨S131072, .i32⟩ : BufTy).Contents (Elt Ideal))
  (x3 : (⟨S256x512, .f32⟩ : BufTy).Contents (Elt Ideal)) (x4 : (⟨S512x1024, .f32⟩ : BufTy).Contents (Elt Ideal))
variable (hty : ∀ e : Fin 131072, InRange (x2 (ix1 e)))
include hty

/-- The gather's start index at edge e is the edge's type: the wrap of negative indices does not bind. -/
theorem start_eq (e : Fin 131072) :
    val_main_call1_v5 (F := Ideal) x2 (ix3 e (0 : Fin 1) (0 : Fin 1)) = x2 (ix1 e) := by
  rw [val_main_call1_v5_apply]
  have i5 : idx_main_call1_v5 (ix3 e (0 : Fin 1) (0 : Fin 1)) = ix4 e (0 : Fin 1) (0 : Fin 1) (0 : Fin 1) :=
    funext fun a => Fin.ext (by
      match a with
      | ⟨0, _⟩ => show ((e.val * 1 + 0) * 1 + 0) / 1 = e.val; omega
      | ⟨1, _⟩ => rfl
      | ⟨2, _⟩ => rfl
      | ⟨3, _⟩ => rfl)
  rw [i5, val_main_call1_v4_apply, val_main_call1_v1_apply, val_main_v7_apply]
  have i7 : idx_main_v7 (ix4 e (0 : Fin 1) (0 : Fin 1) (0 : Fin 1)) = ix1 e :=
    funext fun a => Fin.ext (by match a with | ⟨0, _⟩ => rfl)
  rw [i7, val_main_call1_v0_apply, val_main_call1_c_apply, Cert.MlpSelect.Word.slt_zero (hty e), select_zero]

/-- The range test 0 ≤ index ≤ 7 holds at every entry. -/
theorem inrange_all (i : S131072x1x1.Idx) : val_main_call1_v11 (F := Ideal) x2 i = 1#1 := by
  obtain ⟨e, a, b, rfl⟩ : ∃ (e : Fin 131072) (a b : Fin 1), i = ix3 e a b := ⟨i 0, i 1, i 2, eq_ix3 i⟩
  obtain rfl : a = 0 := Subsingleton.elim _ _
  obtain rfl : b = 0 := Subsingleton.elim _ _
  rw [val_main_call1_v11_apply, val_main_call1_v7_apply, val_main_call1_v10_apply, start_eq x2 hty e,
    val_main_call1_v6_apply, val_main_call1_c_2_apply, val_main_call1_v9_apply, val_main_call1_v8_apply,
    val_main_call1_c_1_apply, Cert.MlpSelect.Word.sge_zero (hty e), Cert.MlpSelect.Word.sle_seven (hty e)]
  rfl

/-- So the test reduced over its unit axis is one at every edge. -/
theorem mask_one (j : S131072x1.Idx) : val_main_call1_v12 (F := Ideal) x2 j = 1#1 := by
  unfold val_main_call1_v12 Host.reduce
  exact foldl_andi_one (fun n => val_main_call1_v11 (F := Ideal) x2 (S131072x1x1.rowMajor.symm n)) _ _ rfl
    (fun n _ => inrange_all x2 hty _)

/-- The reference's result at (e, d, k) is the specification's. -/
theorem ref_apply (e : Fin 131072) (d : Fin 2) (k : Fin 128) :
    val_main_v9 (F := Ideal) x0 x1 x2 x3 x4 (ix3 e d k)
      = selected (val_main_v2 (F := Ideal) x0 x1) x3 x4 (fun e => grpOf (x2 (ix1 e))) e d k := by
  have he := e.isLt; have hd := d.isLt; have hk := k.isLt; have hs := (grpOf (x2 (ix1 e))).isLt
  rw [val_main_v9_apply]
  have i9 : idx_main_v9 (ix3 e d k) = ix4 e d (0 : Fin 1) k := funext fun a => Fin.ext (by
    match a with
    | ⟨0, _⟩ => show ((e.val * 2 + d.val) * 128 + k.val) / 256 = e.val; omega
    | ⟨1, _⟩ => show ((e.val * 2 + d.val) * 128 + k.val) / 128 % 2 = d.val; omega
    | ⟨2, _⟩ => rfl
    | ⟨3, _⟩ => show ((e.val * 2 + d.val) * 128 + k.val) % 128 = k.val; omega)
  rw [i9, val_main_v8_apply, val_main_call1_v14_apply, mask_one x2 hty, select_one]
  show val_main_v6 (F := Ideal) x0 x1 x3 x4
    (gather_S131072x2x8x128_S131072x1x1_S131072x2x1x128_13_2_0_0_2_2_121128.operandIdx (ix4 e d (0 : Fin 1) k) (val_main_call1_v5 (F := Ideal) x2)) = _
  have hop : gather_S131072x2x8x128_S131072x1x1_S131072x2x1x128_13_2_0_0_2_2_121128.operandIdx (ix4 e d (0 : Fin 1) k) (val_main_call1_v5 (F := Ideal) x2) = ix4 e d (grpOf (x2 (ix1 e))) k :=
    funext fun a => Fin.ext (by
      match a with
      | ⟨0, _⟩ => exact op0 _ _
      | ⟨1, _⟩ => exact op1 _ _
      | ⟨2, _⟩ =>
        refine (op2 _ _).trans ?_
        have hst : startAt (ix4 e d (0 : Fin 1) k) = ix3 e (0 : Fin 1) (0 : Fin 1) := funext fun b => Fin.ext (by
          match b with
          | ⟨0, _⟩ => rfl
          | ⟨1, _⟩ => rfl
          | ⟨2, _⟩ => rfl)
        rw [hst, start_eq x2 hty e]
        exact Cert.MlpSelect.Word.clamp_eq (hty e)
      | ⟨3, _⟩ => exact op3 _ _)
  rw [hop, val_main_v6_apply]
  have i6 : idx_main_v6 (ix4 e d (grpOf (x2 (ix1 e))) k) = ix3 e d (chan (grpOf (x2 (ix1 e))) k) := funext fun a => Fin.ext (by
    match a with
    | ⟨0, _⟩ => show (((e.val * 2 + d.val) * 8 + (grpOf (x2 (ix1 e))).val) * 128 + k.val) / 2048 = e.val; omega
    | ⟨1, _⟩ => show (((e.val * 2 + d.val) * 8 + (grpOf (x2 (ix1 e))).val) * 128 + k.val) / 1024 % 2 = d.val; omega
    | ⟨2, _⟩ => show (((e.val * 2 + d.val) * 8 + (grpOf (x2 (ix1 e))).val) * 128 + k.val) % 1024 = (grpOf (x2 (ix1 e))).val * 128 + k.val; omega)
  rw [i6, val_main_v5_apply]
  unfold selected mlp
  refine Finset.sum_congr rfl fun mm _ => ?_
  have il : lidx_main_v5 (ix3 e d (chan (grpOf (x2 (ix1 e))) k)) mm = ix3 e d mm := funext fun a => Fin.ext (by
    match a with
    | ⟨0, _⟩ => rfl
    | ⟨1, _⟩ => rfl
    | ⟨2, _⟩ => rfl)
  have ir : ridx_main_v5 (ix3 e d (chan (grpOf (x2 (ix1 e))) k)) mm = ix2 mm (chan (grpOf (x2 (ix1 e))) k) := funext fun a => Fin.ext (by
    match a with
    | ⟨0, _⟩ => rfl
    | ⟨1, _⟩ => rfl)
  rw [il, ir]
  refine congrArg (· * x4 (ix2 mm (chan (grpOf (x2 (ix1 e))) k))) ?_
  rw [val_main_v4_apply, val_main_v3_apply, val_main_call0_v0_apply, val_main_call0_cst_apply]
  unfold Cert.MlpSelect.hidden
  show max _ _ = max _ _
  refine congrArg (max · zero) ?_
  refine Finset.sum_congr rfl fun i _ => ?_
  have jl : lidx_main_v3 (ix3 e d mm) i = ix3 e d i := funext fun a => Fin.ext (by
    match a with
    | ⟨0, _⟩ => rfl
    | ⟨1, _⟩ => rfl
    | ⟨2, _⟩ => rfl)
  have jr : ridx_main_v3 (ix3 e d mm) i = ix2 i mm := funext fun a => Fin.ext (by
    match a with
    | ⟨0, _⟩ => rfl
    | ⟨1, _⟩ => rfl)
  rw [jl, jr]

/-- The reference's whole result. -/
theorem ref_eq : val_main_v9 (F := Ideal) x0 x1 x2 x3 x4
    = outArr (val_main_v2 (F := Ideal) x0 x1) x3 x4 (fun e => grpOf (x2 (ix1 e))) := by
  funext i
  obtain ⟨e, d, k, rfl⟩ : ∃ (e : Fin 131072) (d : Fin 2) (k : Fin 128), i = ix3 e d k := ⟨i 0, i 1, i 2, eq_ix3 i⟩
  exact ref_apply x0 x1 x2 x3 x4 hty e d k

end Stages

end Cert.ReferenceIdeal.RefValue

end
-- ==== Proof.Payload.lean ====
/-
  The kernel body's stored value at one element of its output block.

  The body holds a block of 1024 rows `x0`, the two weight matrices `x1`, `x2` whole, and the block's 1024 rows of the
  eight type weights `x3`. Its value at row p, channel q is ∑ t, (∑ m, max (∑ i, x0 p i · x1 i m) 0 · x2 m (t·128 + q)) · x3 p t:
  both matrix products accumulate into zero, so each is a plain inner product; the change of format after the rectifier is
  the identity on the extended reals; the cast of the 1024 columns to 8 × 128 is (t, q) ↦ t·128 + q; the weights are laid
  along the last axis; the sum over the middle axis is a sum over t.
-/
import proofs.«431208_j50955492000253_1_alg».proof.Proof.Gen.KernelIdeal.Skeleton
import proofs.«431208_j50955492000253_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The two matrix products at an index -/

theorem first_l0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem first_l1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem first_r0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem first_r1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The product into a zero accumulator, at row `p` and column `c`: the inner product of the left operand's row with the
    right operand's column. -/
theorem first (l : FVec Ideal S1024x256 .bf16) (r : FVec Ideal S256x512 .bf16) (p : Fin 1024) (c : Fin 512) :
    matmul dot_S1024x256_S256x512_S1024x512_1_0_0_1_n_n none l r (constant S1024x512 .f32 0x00000000#32) (ix2 p c) = ∑ k : Fin 256, l (ix2 p k) * r (ix2 k c) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p c) ((contrEquiv1 dot_S1024x256_S256x512_S1024x512_1_0_0_1_n_n 256 rfl rfl).symm k) = ix2 p k := funext fun a => Fin.ext (by
    match a with
    | ⟨0, _⟩ => exact first_l0 _ _
    | ⟨1, _⟩ => exact (first_l1 _ _).trans hk)
  have er : dot_S1024x256_S256x512_S1024x512_1_0_0_1_n_n.rhsIdx (ix2 p c) ((contrEquiv1 dot_S1024x256_S256x512_S1024x512_1_0_0_1_n_n 256 rfl rfl).symm k) = ix2 k c := funext fun a => Fin.ext (by
    match a with
    | ⟨0, _⟩ => exact (first_r0 _ _).trans hk
    | ⟨1, _⟩ => exact first_r1 _ _)
  rw [el, er]

theorem second_l0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem second_l1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem second_r0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem second_r1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product into a zero accumulator, at row `p` and column `c`: the inner product of the left operand's row with the
    right operand's column. -/
theorem second (l : FVec Ideal S1024x512 .bf16) (r : FVec Ideal S512x1024 .bf16) (p : Fin 1024) (c : Fin 1024) :
    matmul dot_S1024x512_S512x1024_S1024x1024_1_0_0_1_n_n none l r (constant S1024x1024 .f32 0x00000000#32) (ix2 p c) = ∑ k : Fin 512, l (ix2 p k) * r (ix2 k c) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p c) ((contrEquiv1 dot_S1024x512_S512x1024_S1024x1024_1_0_0_1_n_n 512 rfl rfl).symm k) = ix2 p k := funext fun a => Fin.ext (by
    match a with
    | ⟨0, _⟩ => exact second_l0 _ _
    | ⟨1, _⟩ => exact (second_l1 _ _).trans hk)
  have er : dot_S1024x512_S512x1024_S1024x1024_1_0_0_1_n_n.rhsIdx (ix2 p c) ((contrEquiv1 dot_S1024x512_S512x1024_S1024x1024_1_0_0_1_n_n 512 rfl rfl).symm k) = ix2 k c := funext fun a => Fin.ext (by
    match a with
    | ⟨0, _⟩ => exact (second_r0 _ _).trans hk
    | ⟨1, _⟩ => exact second_r1 _ _)
  rw [el, er]

/-! ## The stored value -/

theorem pay_apply (x0 : FVec Ideal S1024x256 .bf16) (x1 : FVec Ideal S256x512 .bf16) (x2 : FVec Ideal S512x1024 .bf16)
    (x3 : FVec Ideal S1024x8 .f32) (p : Fin 1024) (q : Fin 128) :
    k0_pay1 (F := Ideal) x0 x1 x2 x3 (ix2 p q)
      = ∑ t : Fin 8, (∑ m : Fin 512, max (∑ i : Fin 256, x0 (ix2 p i) * x1 (ix2 i m)) Cert.MlpSelect.zero
          * x2 (ix2 m (Cert.MlpSelect.chan t q))) * x3 (ix2 p t) := by
  unfold k0_pay1
  simp only [shapeCast_self]
  refine (Ideal.multiReduction_add_single _ 0x00000000#32 reduces_S1024x8x128_S1024x128 (.inl rfl) rfl (ix2 p q)).trans ?_
  refine Finset.sum_congr rfl fun t _ => ?_
  rw [mulf_apply]
  refine congrArg₂ (· * ·) ?_ ?_
  · -- the 1024 columns cast to 8 × 128: (p, t, q) reads column t · 128 + q
    refine (shapeCast_apply _ shapeCasts_S1024x1024_S1024x8x128 _ (ix2 p (Cert.MlpSelect.chan t q)) ?_).trans ?_
    · rewrite [Shape.rowMajor_val_two, Shape.rowMajor_val_three]
      show p.val * 1024 + (t.val * 128 + q.val) = (p.val * 8 + t.val) * 128 + q.val
      omega
    · refine (second _ _ p (Cert.MlpSelect.chan t q)).trans ?_
      refine Finset.sum_congr rfl fun m _ => ?_
      refine congrArg (· * x2 (ix2 m (Cert.MlpSelect.chan t q))) ?_
      show max (matmul dot_S1024x256_S256x512_S1024x512_1_0_0_1_n_n none x0 x1 (constant S1024x512 .f32 0x00000000#32) (ix2 p m)) _ = _
      rw [first]
      rfl
  · -- the weights laid along the last axis: (p, t, q) reads weight (p, t)
    refine (broadcastTo_apply _ broadcasts_S1024x8x1_S1024x8x128 _ (ix3 p t (0 : Fin 1)) (fun a => ?_)).trans ?_
    · match a with
      | ⟨0, _⟩ => show p.val = if (1024 : Nat) = 1 then 0 else p.val; rw [if_neg (by decide)]
      | ⟨1, _⟩ => show t.val = if (8 : Nat) = 1 then 0 else t.val; rw [if_neg (by decide)]
      | ⟨2, _⟩ => show 0 = if (1 : Nat) = 1 then 0 else q.val; rw [if_pos rfl]
    · exact shapeCast_apply x3 shapeCasts_S1024x8_S1024x8x1 (ix3 p t (0 : Fin 1)) (ix2 p t) (by
        rewrite [Shape.rowMajor_val_two, Shape.rowMajor_val_three]
        show p.val * 8 + t.val = (p.val * 8 + t.val) * 1 + 0
        omega)

end Cert.KernelIdeal.Pay

end
-- ==== Proof.KernelValue.lean ====
/-
  What the kernel's result array holds after the run, as one function of the arrays the launch reads.

  The launch walks 256 blocks of 1024 rows. At block t the body sees rows t·1024 … t·1024 + 1023 of the row array and of
  the type weights, and both weight matrices whole; it writes rows t·1024 … of the result. The body's value at (p, q)
  depends on row p of its blocks only, so the written block is block t of ONE function of the whole arrays: at row r,
  channel q, ∑ s, (∑ k, max (∑ i, X r i · W1 i k) 0 · W2 k (s·128 + q)) · OH r s. The 256 blocks tile the 262144 rows
  (row r lies in block r / 1024), so the result array ends as that function everywhere.
-/
import proofs.«431208_j50955492000253_1_alg».proof.Proof.Gen.KernelIdeal.Frame
import proofs.«431208_j50955492000253_1_alg».proof.Proof.Payload
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open Cert.MlpSelect (zero chan)

variable (m : (ℓ : Loc nD τ sig) → Buf (Elt Ideal) ℓ) (ρ : Dev nD → PrngReg)

theorem hz : (![0, 0] : Fin 2 → Nat) = fun _ => 0 := funext fun a => by fin_cases a <;> rfl

/-! ## The arrays the launch reads, and the function of them the result is -/

/-- The rows, the two weight matrices and the type weights, as the launch finds them. -/
abbrev Xarr (c : Dev nD) : S262144x256.Idx → EReal := V m c main_v4
abbrev W1arr (c : Dev nD) : S256x512.Idx → EReal := V m c main_v8
abbrev W2arr (c : Dev nD) : S512x1024.Idx → EReal := V m c main_v9
abbrev OHarr (c : Dev nD) : S262144x8.Idx → EReal := V m c main_v7

/-- Row and channel of an index of the result array, at their literal ranges. -/
def rowOf (j : S262144x128.Idx) : Fin 262144 := ⟨(j 0).val, idx2_lt0 j⟩
def colOf (j : S262144x128.Idx) : Fin 128 := ⟨(j 1).val, idx2_lt1 j⟩

/-- The result at row r, channel q: the weighted sum over the eight channel groups of the perceptron's output. -/
def rowsOut (X : S262144x256.Idx → EReal) (W1 : S256x512.Idx → EReal) (W2 : S512x1024.Idx → EReal) (OH : S262144x8.Idx → EReal) :
    S262144x128.Idx → EReal :=
  fun j => ∑ s : Fin 8, (∑ k : Fin 512, max (∑ i : Fin 256, X (ix2 (rowOf j) i) * W1 (ix2 i k)) zero
    * W2 (ix2 k (chan s (colOf j)))) * OH (ix2 (rowOf j) s)

/-! ## The index maps, decided over the grid -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of block t is row t·1024 + p of the array. -/
def grow (t : Fin cfg0.N) (p : Fin 1024) : Fin 262144 :=
  ⟨t.val * 1024 + p.val, by have ht := t.isLt; have hN : cfg0.N = 256 := N_0; have hp := p.isLt; omega⟩

/-! ## Each input block, read where the block's rectangle says -/

theorem x_read (c : Dev nD) (t : Fin cfg0.N) (p : Fin 1024) (i : Fin 256) :
    (iblk m c 0 t : S1024x256.Idx → EReal) (ix2 p i) = Xarr m c (ix2 (grow t p) i) := by
  obtain ⟨e0, e1, -⟩ := idx_facts t
  show V m c main_v4 (((cfg0.win 0).blk t).view.emb (ix2 p i)) = V m c main_v4 (ix2 (grow t p) i)
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 256 + 1 * i.val = i.val; omega

theorem w1_read (c : Dev nD) (t : Fin cfg0.N) (i : Fin 256) (k : Fin 512) :
    (iblk m c 1 t : S256x512.Idx → EReal) (ix2 i k) = W1arr m c (ix2 i k) := by
  obtain ⟨-, -, e0, e1, -⟩ := idx_facts t
  show V m c main_v8 (((cfg0.win 1).blk t).view.emb (ix2 i k)) = V m c main_v8 (ix2 i k)
  refine congrArg _ (funext fun a => Fin.ext ?_)
  match a with
  | ⟨0, _⟩ => show win0_1.index t (0 : Fin 2) * 256 + 1 * i.val = i.val; omega
  | ⟨1, _⟩ => show win0_1.index t (1 : Fin 2) * 512 + 1 * k.val = k.val; omega

theorem w2_read (c : Dev nD) (t : Fin cfg0.N) (k : Fin 512) (o : Fin 1024) :
    (iblk m c 2 t : S512x1024.Idx → EReal) (ix2 k o) = W2arr m c (ix2 k o) := by
  obtain ⟨-, -, -, -, e0, e1, -⟩ := idx_facts t
  show V m c main_v9 (((cfg0.win 2).blk t).view.emb (ix2 k o)) = V m c main_v9 (ix2 k o)
  refine congrArg _ (funext fun a => Fin.ext ?_)
  match a with
  | ⟨0, _⟩ => show win0_2.index t (0 : Fin 2) * 512 + 1 * k.val = k.val; omega
  | ⟨1, _⟩ => show win0_2.index t (1 : Fin 2) * 1024 + 1 * o.val = o.val; omega

theorem oh_read (c : Dev nD) (t : Fin cfg0.N) (p : Fin 1024) (s : Fin 8) :
    (iblk m c 3 t : S1024x8.Idx → EReal) (ix2 p s) = OHarr m c (ix2 (grow t p) s) := by
  obtain ⟨-, -, -, -, -, -, e0, e1, -⟩ := idx_facts t
  show V m c main_v7 (((cfg0.win 3).blk t).view.emb (ix2 p s)) = V m c main_v7 (ix2 (grow t p) s)
  refine congrArg _ (funext fun a => Fin.ext ?_)
  match a with
  | ⟨0, _⟩ => show win0_3.index t (0 : Fin 2) * 1024 + 1 * p.val = t.val * 1024 + p.val; omega
  | ⟨1, _⟩ => show win0_3.index t (1 : Fin 2) * 8 + 1 * s.val = s.val; omega

/-! ## What point t writes back -/

/-- The written block at point t is block t of `rowsOut` of the arrays. -/
theorem flushed_eq (c : Dev nD) (t : Fin cfg0.N) :
    (dats m 0 c).flushed 4 t
      = ((cfg0.win 4).blk t).view.read (Elt Ideal) (rowsOut (Xarr m c) (W1arr m c) (W2arr m c) (OHarr m c)) := by
  show (cfg0.win 4).cut (grid0.coords t) ((dats m 0 c).after 4 t) = _
  rw [after0_4]
  unfold out0_4
  rw [View.canon_unit_zero hz]
  simp only [View.ld_unit_zero (S := S1024x256) hz, View.ld_unit_zero (S := S256x512) hz,
    View.ld_unit_zero (S := S512x1024) hz, View.ld_unit_zero (S := S1024x8) hz]
  funext j
  obtain ⟨p, q, rfl⟩ : ∃ (p : Fin 1024) (q : Fin 128), j = ix2 p q := ⟨j 0, j 1, eq_ix2 j⟩
  obtain ⟨-, -, -, -, -, -, -, -, e0, e1⟩ := idx_facts t
  have hemb : ((cfg0.win 4).blk t).view.emb (ix2 p q) = ix2 (grow t p) q := funext fun a => Fin.ext (by
    match a with
    | ⟨0, _⟩ => show win0_4.index t (0 : Fin 2) * 1024 + 1 * p.val = t.val * 1024 + p.val; omega
    | ⟨1, _⟩ => show win0_4.index t (1 : Fin 2) * 128 + 1 * q.val = q.val; omega)
  show k0_pay1 (F := Ideal) (iblk m c 0 t) (iblk m c 1 t) (iblk m c 2 t) (iblk m c 3 t) (ix2 p q)
    = rowsOut (Xarr m c) (W1arr m c) (W2arr m c) (OHarr m c) (((cfg0.win 4).blk t).view.emb (ix2 p q))
  rw [hemb]
  refine (Pay.pay_apply _ _ _ _ p q).trans ?_
  show _ = ∑ s : Fin 8, (∑ k : Fin 512, max (∑ i : Fin 256, Xarr m c (ix2 (grow t p) i) * W1arr m c (ix2 i k)) zero
    * W2arr m c (ix2 k (chan s q))) * OHarr m c (ix2 (grow t p) s)
  refine Finset.sum_congr rfl fun s _ => ?_
  rw [oh_read m c t p s]
  refine congrArg (· * OHarr m c (ix2 (grow t p) s)) ?_
  refine Finset.sum_congr rfl fun k _ => ?_
  rw [w2_read m c t k (chan s q)]
  refine congrArg (· * W2arr m c (ix2 k (chan s q))) ?_
  refine congrArg (max · zero) ?_
  refine Finset.sum_congr rfl fun i _ => ?_
  rw [x_read m c t p i, w1_read m c t i k]

/-! ## The blocks tile the array -/

theorem mem_blk (t : Fin cfg0.N) (i : S262144x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v10).slice (win0_4.rect t)).set ↔ _
  rw [View.set_slice_whole, Rect.mem_set_unit]
  exact Iff.rfl

/-- Row r lies in block r / 1024. -/
theorem cover (i : S262144x128.Idx) :
    ∃ t : Fin cfg0.N, (cfg0.win 4).flush t = true ∧ i ∈ ((cfg0.win 4).blk t).view.set := by
  have hi0 : (i 0).val < 262144 := idx2_lt0 i
  have hi1 : (i 1).val < 128 := idx2_lt1 i
  have hN : cfg0.N = 256 := N_0
  refine ⟨⟨(i 0).val / 1024, by rw [hN]; omega⟩, flush0_4 _, ?_⟩
  obtain ⟨-, -, -, -, -, -, -, -, e0, e1⟩ := idx_facts ⟨(i 0).val / 1024, by rw [hN]; omega⟩
  rw [mem_blk]
  intro a
  match a with
  | ⟨0, _⟩ =>
    show win0_4.index _ (0 : Fin 2) * 1024 ≤ (i 0).val ∧ (i 0).val < win0_4.index _ (0 : Fin 2) * 1024 + 1024
    rw [e0]; show (i 0).val / 1024 * 1024 ≤ (i 0).val ∧ (i 0).val < (i 0).val / 1024 * 1024 + 1024; omega
  | ⟨1, _⟩ =>
    show win0_4.index _ (1 : Fin 2) * 128 ≤ (i 1).val ∧ (i 1).val < win0_4.index _ (1 : Fin 2) * 128 + 128
    rw [e1]; omega

/-- The result array after the run. -/
theorem final (c : Dev nD) :
    (dats m 0 c).arrAt 4 cfg0.N = rowsOut (Xarr m c) (W1arr m c) (W2arr m c) (OHarr m c) :=
  (dats m 0 c).arrAt_eq_of_cover 4 _ (fun t _ => flushed_eq m c t) cover

end Cert.KernelIdeal.Val

end
-- ==== Proof.KernelArrays.lean ====
/-
  The arrays the launch reads, as functions of the program's arguments.

  Before the launch the program lays the two embedding tables side by side row by row (two casts and a join), recasts the
  131072 × 2 rows of 256 channels as 262144 rows, and changes their format; it changes the format of the two weight
  matrices; and it builds the type weights: each edge's type is repeated for the edge's two rows, and the weight of group t
  at a row is the comparison of the row's type with t, converted to a float.
-/
import proofs.«431208_j50955492000253_1_alg».proof.Proof.Gen.KernelIdeal.Frame
import Idealize.ShloMosaic.Lib.StableHlo.Run

set_option maxRecDepth 16384

noncomputable section

namespace Cert.KernelIdeal.Arr

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The two tables joined row by row: [edge, copy, channel]. -/
def joined (a0 a1 : S131072x256.Idx → Elt F .f32) : S131072x2x256.Idx → Elt F .f32 :=
  concatenate S131072x2x256 2 [⟨S131072x2x128, shapeCast S131072x2x128 a0 shapeCasts_S131072x256_S131072x2x128⟩,
    ⟨S131072x2x128, shapeCast S131072x2x128 a1 shapeCasts_S131072x256_S131072x2x128⟩]
    concatenates_S131072x2x128_S131072x2x128_S131072x2x256_d2

/-- Each edge's type, once per row of the edge. -/
def rowTypes (a2 : S131072.Idx → BitVec 32) : S262144.Idx → BitVec 32 :=
  shapeCast S262144 (broadcastInDim S131072x2 ![0] bcast_S131072_S131072x2_0 a2) shapeCasts_S131072x2_S262144

theorem rows_eq (c : Dev nD) :
    V m c main_v4 = truncf .bf16 (shapeCast S262144x256
      (joined (m ((c : Thread nD τ).loc main_arg0)) (m ((c : Thread nD τ).loc main_arg1))) shapeCasts_S131072x2x256_S262144x256) bitsLt_bf16_f32 := by
  dsimp only [V, V0]
  simp only [hostOps0, hostOps0_1, hostOps0_2, List.flatten_cons, List.flatten_nil, List.append_nil, List.cons_append, List.nil_append]
  after_results
  rfl

theorem w1_eq (c : Dev nD) :
    V m c main_v8 = truncf .bf16 (m ((c : Thread nD τ).loc main_arg3)) bitsLt_bf16_f32 := by
  dsimp only [V, V0]
  simp only [hostOps0, hostOps0_1, hostOps0_2, List.flatten_cons, List.flatten_nil, List.append_nil, List.cons_append, List.nil_append]
  after_results

theorem w2_eq (c : Dev nD) :
    V m c main_v9 = truncf .bf16 (m ((c : Thread nD τ).loc main_arg4)) bitsLt_bf16_f32 := by
  dsimp only [V, V0]
  simp only [hostOps0, hostOps0_1, hostOps0_2, List.flatten_cons, List.flatten_nil, List.append_nil, List.cons_append, List.nil_append]
  after_results

theorem weights_eq (c : Dev nD) :
    V m c main_v7 = uitofp (F := F) .f32 (cmpi .eq
      (broadcastInDim S262144x8 ![0, 1] bcast_S262144x1_S262144x8_0_1
        (broadcastInDim S262144x1 ![0] bcast_S262144_S262144x1_0 (rowTypes (m ((c : Thread nD τ).loc main_arg2)))))
      (broadcastInDim S262144x8 ![0, 1] bcast_S1x8_S262144x8_0_1 (iotaInDim S1x8 32 1))) := by
  dsimp only [V, V0]
  simp only [hostOps0, hostOps0_1, hostOps0_2, List.flatten_cons, List.flatten_nil, List.append_nil, List.cons_append, List.nil_append]
  after_results
  rfl

end Cert.KernelIdeal.Arr

end
-- ==== Proof.KernelOut.lean ====
/-
  The kernel program's result buffer after the run, index by index, when every edge type lies in [0, 8).

  After the launch the program recasts the 262144 result rows as [edge, copy, channel]: (e, d, k) reads row 2e + d.
  Row 2e + d of the row array is row (e, d) of the joined tables (the recast before the launch is the same one backwards;
  the change of format is the identity on the extended reals), the weight matrices are the arguments themselves, and the
  type weight of group s at row 2e + d is the indicator of s = type e: so the weighted sum over the eight groups picks the
  group of the edge's type.
-/
import proofs.«431208_j50955492000253_1_alg».proof.Proof.KernelValue
import proofs.«431208_j50955492000253_1_alg».proof.Proof.KernelArrays
import proofs.«431208_j50955492000253_1_alg».proof.Proof.TypeWord

set_option maxRecDepth 16384

noncomputable section

open scoped BigOperators

namespace Cert.KernelIdeal.Out

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)
open Cert.MlpSelect (zero chan mlp selected outArr)
open Cert.MlpSelect.Word (InRange grpOf)

variable (m : (ℓ : Loc nD τ sig) → Buf (Elt Ideal) ℓ) (ρ : Dev nD → PrngReg)

/-- The program's arguments. -/
abbrev a0 (c : Dev nD) : S131072x256.Idx → EReal := m ((c : Thread nD τ).loc main_arg0)
abbrev a1 (c : Dev nD) : S131072x256.Idx → EReal := m ((c : Thread nD τ).loc main_arg1)
abbrev a2 (c : Dev nD) : S131072.Idx → BitVec 32 := m ((c : Thread nD τ).loc main_arg2)
abbrev a3 (c : Dev nD) : S256x512.Idx → EReal := m ((c : Thread nD τ).loc main_arg3)
abbrev a4 (c : Dev nD) : S512x1024.Idx → EReal := m ((c : Thread nD τ).loc main_arg4)

/-- Row 2e + d. -/
def rowIx (e : Fin 131072) (d : Fin 2) : Fin 262144 := ⟨e.val * 2 + d.val, by have := e.isLt; have := d.isLt; omega⟩

/-! ## The result buffer is the recast result array -/

theorem out_post (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v11)
      = shapeCast S131072x2x128 (Val.rowsOut (Val.Xarr m c) (Val.W1arr m c) (Val.W2arr m c) (Val.OHarr m c)) shapeCasts_S262144x128_S131072x2x128 := by
  refine ((h c).2 main_v11 (Pipeline.mem_restRefs_of main_v11 (by decide) (by decide))).trans ?_
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10)
      = Val.rowsOut (Val.Xarr m c) (Val.W1arr m c) (Val.W2arr m c) (Val.OHarr m c) :=
    (Pipeline.withArrays_arr spec0 launch0.win.arr_inj c _ _ 4).trans (Val.final m c)
  rw [e]
  rfl

/-! ## The arrays at the indices the result reads -/

/-- Row 2e + d of the row array is row (e, d) of the joined tables. -/
theorem X_apply (c : Dev nD) (e : Fin 131072) (d : Fin 2) (i : Fin 256) :
    Val.Xarr m c (ix2 (rowIx e d) i) = Arr.joined (F := Ideal) (a0 m c) (a1 m c) (ix3 e d i) := by
  show V m c main_v4 (ix2 (rowIx e d) i) = _
  rw [Arr.rows_eq]
  show shapeCast S262144x256 (Arr.joined (F := Ideal) (a0 m c) (a1 m c)) shapeCasts_S131072x2x256_S262144x256 (ix2 (rowIx e d) i) = _
  exact shapeCast_apply _ _ _ (ix3 e d i) (by
    rewrite [Shape.rowMajor_val_three, Shape.rowMajor_val_two]
    show (e.val * 2 + d.val) * 256 + i.val = (e.val * 2 + d.val) * 256 + i.val
    rfl)

theorem W1_apply (c : Dev nD) (i : Fin 256) (k : Fin 512) : Val.W1arr m c (ix2 i k) = a3 m c (ix2 i k) := by
  show V m c main_v8 (ix2 i k) = _
  rw [Arr.w1_eq]
  rfl

theorem W2_apply (c : Dev nD) (k : Fin 512) (o : Fin 1024) : Val.W2arr m c (ix2 k o) = a4 m c (ix2 k o) := by
  show V m c main_v9 (ix2 k o) = _
  rw [Arr.w2_eq]
  rfl

/-- The type repeated per row: row 2e + d carries edge e's type. -/
theorem rowTypes_apply (c : Dev nD) (e : Fin 131072) (d : Fin 2) :
    Arr.rowTypes (a2 m c) (ix1 (rowIx e d)) = a2 m c (ix1 e) := by
  unfold Arr.rowTypes
  refine (shapeCast_apply _ shapeCasts_S131072x2_S262144 _ (ix2 e d) (by
    rewrite [Shape.rowMajor_val_two, Shape.rowMajor_val_one]
    show e.val * 2 + d.val = e.val * 2 + d.val
    rfl)).trans ?_
  exact broadcastInDim_apply _ bcast_S131072_S131072x2_0 _ (ix2 e d) (ix1 e) (fun a => by
    match a with
    | ⟨0, _⟩ => show e.val = if (131072 : Nat) = 1 then 0 else e.val; rw [if_neg (by decide)])

/-- The weight of group s at row 2e + d: the comparison of edge e's type with s, as a float. -/
theorem OH_apply (c : Dev nD) (e : Fin 131072) (d : Fin 2) (s : Fin 8) :
    Val.OHarr m c (ix2 (rowIx e d) s)
      = FloatOps.uitofp (F := Ideal) .f32 (IntOp.cmpi .eq (a2 m c (ix1 e)) (BitVec.ofNat 32 s.val)) := by
  show V m c main_v7 (ix2 (rowIx e d) s) = _
  rw [Arr.weights_eq]
  have hl : broadcastInDim S262144x8 ![0, 1] bcast_S262144x1_S262144x8_0_1
      (broadcastInDim S262144x1 ![0] bcast_S262144_S262144x1_0 (Arr.rowTypes (a2 m c))) (ix2 (rowIx e d) s) = a2 m c (ix1 e) := by
    refine (broadcastInDim_apply _ bcast_S262144x1_S262144x8_0_1 _ (ix2 (rowIx e d) s) (ix2 (rowIx e d) (0 : Fin 1)) (fun a => by
      match a with
      | ⟨0, _⟩ => show e.val * 2 + d.val = if (262144 : Nat) = 1 then 0 else e.val * 2 + d.val; rw [if_neg (by decide)]
      | ⟨1, _⟩ => show 0 = if (1 : Nat) = 1 then 0 else s.val; rw [if_pos rfl])).trans ?_
    refine (broadcastInDim_apply _ bcast_S262144_S262144x1_0 _ (ix2 (rowIx e d) (0 : Fin 1)) (ix1 (rowIx e d)) (fun a => by
      match a with
      | ⟨0, _⟩ => show e.val * 2 + d.val = if (262144 : Nat) = 1 then 0 else e.val * 2 + d.val; rw [if_neg (by decide)])).trans ?_
    exact rowTypes_apply m c e d
  have hr : broadcastInDim S262144x8 ![0, 1] bcast_S1x8_S262144x8_0_1 (iotaInDim S1x8 32 1) (ix2 (rowIx e d) s) = BitVec.ofNat 32 s.val := by
    refine (broadcastInDim_apply _ bcast_S1x8_S262144x8_0_1 _ (ix2 (rowIx e d) s) (ix2 (0 : Fin 1) s) (fun a => by
      match a with
      | ⟨0, _⟩ => show 0 = if (1 : Nat) = 1 then 0 else e.val * 2 + d.val; rw [if_pos rfl]
      | ⟨1, _⟩ => show s.val = if (8 : Nat) = 1 then 0 else s.val; rw [if_neg (by decide)])).trans ?_
    rfl
  show FloatOps.uitofp (F := Ideal) .f32 (IntOp.cmpi .eq
      (broadcastInDim S262144x8 ![0, 1] bcast_S262144x1_S262144x8_0_1
        (broadcastInDim S262144x1 ![0] bcast_S262144_S262144x1_0 (Arr.rowTypes (a2 m c))) (ix2 (rowIx e d) s))
      (broadcastInDim S262144x8 ![0, 1] bcast_S1x8_S262144x8_0_1 (iotaInDim S1x8 32 1) (ix2 (rowIx e d) s))) = _
  rw [hl, hr]

/-! ## The result at (e, d, k) -/

/-- The recast result array at (e, d, k), when the types are in range: the specification's value over the joined tables. -/
theorem out_apply (c : Dev nD) (hty : ∀ e : Fin 131072, InRange (a2 m c (ix1 e))) (e : Fin 131072) (d : Fin 2) (k : Fin 128) :
    shapeCast S131072x2x128 (Val.rowsOut (Val.Xarr m c) (Val.W1arr m c) (Val.W2arr m c) (Val.OHarr m c))
        shapeCasts_S262144x128_S131072x2x128 (ix3 e d k)
      = selected (Arr.joined (F := Ideal) (a0 m c) (a1 m c)) (a3 m c) (a4 m c) (fun e => grpOf (a2 m c (ix1 e))) e d k := by
  refine (shapeCast_apply _ shapeCasts_S262144x128_S131072x2x128 _ (ix2 (rowIx e d) k) (by
    rewrite [Shape.rowMajor_val_two, Shape.rowMajor_val_three]
    show (e.val * 2 + d.val) * 128 + k.val = (e.val * 2 + d.val) * 128 + k.val
    rfl)).trans ?_
  show ∑ s : Fin 8, (∑ kk : Fin 512, max (∑ i : Fin 256, Val.Xarr m c (ix2 (rowIx e d) i) * Val.W1arr m c (ix2 i kk)) zero
      * Val.W2arr m c (ix2 kk (chan s k))) * Val.OHarr m c (ix2 (rowIx e d) s) = _
  refine (Cert.MlpSelect.onehot_sum _ _ (grpOf (a2 m c (ix1 e))) (fun t => ?_)).trans ?_
  · rw [OH_apply m c e d t]
    exact Cert.MlpSelect.Word.onehot (hty e) t
  · unfold selected mlp
    refine Finset.sum_congr rfl fun kk _ => ?_
    rw [W2_apply]
    refine congrArg (· * a4 m c (ix2 kk (chan (grpOf (a2 m c (ix1 e))) k))) ?_
    unfold Cert.MlpSelect.hidden
    refine congrArg (max · zero) ?_
    refine Finset.sum_congr rfl fun i _ => ?_
    rw [X_apply, W1_apply]

/-- The recast result array, whole. -/
theorem out_eq (c : Dev nD) (hty : ∀ e : Fin 131072, InRange (a2 m c (ix1 e))) :
    shapeCast S131072x2x128 (Val.rowsOut (Val.Xarr m c) (Val.W1arr m c) (Val.W2arr m c) (Val.OHarr m c))
        shapeCasts_S262144x128_S131072x2x128
      = outArr (Arr.joined (F := Ideal) (a0 m c) (a1 m c)) (a3 m c) (a4 m c) (fun e => grpOf (a2 m c (ix1 e))) := by
  funext i
  obtain ⟨e, d, k, rfl⟩ : ∃ (e : Fin 131072) (d : Fin 2) (k : Fin 128), i = ix3 e d k := ⟨i 0, i 1, i 2, eq_ix3 i⟩
  exact out_apply m c hty e d k

/-! ## The run -/

/-- Every weakly fair execution of the kernel program ends with the result buffer at the specification's function of the
    arguments, and the arguments unchanged, when every edge type is in range. -/
theorem run (hty : ∀ (c : Dev nD) (e : Fin 131072), InRange (a2 m c (ix1 e))) :
    θ_run defs (onTc (τ := τ) (main (F := Ideal))) ⟨m, fun _ => 0, ρ⟩ fun r => ∀ c : Dev nD,
      r.2.mem ((c : Thread nD τ).loc main_v11)
        = outArr (Arr.joined (F := Ideal) (a0 m c) (a1 m c)) (a3 m c) (a4 m c) (fun e => grpOf (a2 m c (ix1 e)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(out_post m r h c).trans (out_eq m c (hty c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Out

end
-- ==== Proof.PreRange.lean ====
/-
  What the precondition says of the edge types.

  The precondition is a conjunction of five `all`s; the last is all (0 ≤ type ∧ type < 8). An `all` that is one had a
  one at every entry, and a conjunction that is one has both conjuncts one: so at every edge the two printed comparisons hold.
-/
import proofs.«431208_j50955492000253_1_alg».proof.Proof.Gen.Pre_finite_inputs
import proofs.«431208_j50955492000253_1_alg».proof.Proof.TypeWord
import Idealize.ShloMosaic.Lib.ReduceAll
import Idealize.ShloMosaic.Lib.ValueIdx

noncomputable section

namespace Cert.Pre_finite_inputs.Range

open Cert.Pre_finite_inputs Cert.Pre_finite_inputs.Gen Idealize.ShloMosaic Idealize.ShloMosaic.ValueIdx
open Cert.MlpSelect.Word (InRange)

instance : Subsingleton S_.Idx := ⟨fun a b => funext fun d => d.elim0⟩

/-- Under the precondition every edge type passes both comparisons. -/
theorem types_in_range {a0 a1 : FVec Ideal S131072x256 .f32} {a2 : IVec S131072 32} {a3 : FVec Ideal S256x512 .f32}
    {a4 : FVec Ideal S512x1024 .f32} (h : fn (F := Ideal) a0 a1 a2 a3 a4 = fun _ => 1#1) (e : Fin 131072) :
    InRange (a2 (ix1 e)) := by
  have h0 := congrFun h ix0
  dsimp only [fn, fn_part1] at h0
  have h24 := (IntOp.andi_eq_one.mp h0).2
  have he := Host.reduce_andi_all _ _ _ _ ix0 h24 (ix1 e)
  have hb := IntOp.andi_eq_one.mp he
  exact ⟨hb.1, hb.2⟩

end Cert.Pre_finite_inputs.Range

end
-- ==== Proof.lean ====
/-
  A two-layer perceptron on 262144 rows followed by the choice of one of eight channel groups per edge, computed by a
  blocked kernel, against the same computation written with two contractions and a gather.

  Row (e, d) of the input is the 256-vector made of the two tables' d-th halves of edge e. Both programs compute, for every
  row, hidden m = max (∑ i, row i · W1 i m) 0 and output o = ∑ m, hidden m · W2 m o for the 1024 = 8 · 128 output channels,
  and keep the 128 channels of the group named by the edge's type. The reference takes that group by a gather along the
  group axis; the kernel multiplies the eight groups by the edge's one-hot weights and adds them up. On the extended reals a
  product with 0 is 0 and with 1 is the other factor, so the weighted sum IS the group the type names — for a type in
  [0, 8), which the precondition states of every edge (outside that range the reference itself wraps or fills with NaN
  while the weights are all zero). The changes of float format in the kernel program are the identity at the ideal
  instance, a matrix product into a zero accumulator is the plain sum of products, and the blocks of 1024 rows tile the
  rows: no law beyond x · 0 = 0, x · 1 = x and 0 + x = x is used, and the finiteness of the inputs is not needed.

  The frames of the two kernel programs are the generated ones; the reference's is its run with the result dropped;
  the idealization rewrote nothing, so `preserves` is `True`.
-/
import proofs.«431208_j50955492000253_1_alg».proof.Defs
import proofs.«431208_j50955492000253_1_alg».proof.Proof.Gen.Kernel
import proofs.«431208_j50955492000253_1_alg».proof.Proof.Gen.Kernel.Skeleton
import proofs.«431208_j50955492000253_1_alg».proof.Proof.Gen.Kernel.Launch
import proofs.«431208_j50955492000253_1_alg».proof.Proof.Gen.Kernel.Points
import proofs.«431208_j50955492000253_1_alg».proof.Proof.Gen.Kernel.Frame
import proofs.«431208_j50955492000253_1_alg».proof.Proof.Gen.KernelIdeal
import proofs.«431208_j50955492000253_1_alg».proof.Proof.Gen.KernelIdeal.Skeleton
import proofs.«431208_j50955492000253_1_alg».proof.Proof.Gen.KernelIdeal.Launch
import proofs.«431208_j50955492000253_1_alg».proof.Proof.Gen.KernelIdeal.Points
import proofs.«431208_j50955492000253_1_alg».proof.Proof.Gen.KernelIdeal.Frame
import proofs.«431208_j50955492000253_1_alg».proof.Proof.Gen.ReferenceIdeal
import proofs.«431208_j50955492000253_1_alg».proof.Proof.Gen.Pre_finite_inputs
import proofs.«431208_j50955492000253_1_alg».proof.Proof.RefRun
import proofs.«431208_j50955492000253_1_alg».proof.Proof.RefRead
import proofs.«431208_j50955492000253_1_alg».proof.Proof.RefValue
import proofs.«431208_j50955492000253_1_alg».proof.Proof.KernelOut
import proofs.«431208_j50955492000253_1_alg».proof.Proof.PreRange
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the same function of the arguments: the perceptron's output channels of the group
    each edge's type names. The precondition gives the types' range; the arguments' agreement makes the two terms one. -/
theorem algebraic : Cert.algebraic_KernelIdeal_ReferenceIdeal := by
  intro m ρ m' ρ' hpre hagree
  have hty : ∀ (c : Dev Cert.KernelIdeal.nD) (e : Fin 131072),
      Cert.MlpSelect.Word.InRange (Cert.KernelIdeal.Out.a2 m c (ix1 e)) :=
    fun c e => Cert.Pre_finite_inputs.Range.types_in_range (hpre c) e
  refine ⟨_, Cert.KernelIdeal.Out.run m ρ hty, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v9_eq, (hagree c).1, (hagree c).2.1, (hagree c).2.2.1, (hagree c).2.2.2.1,
    (hagree c).2.2.2.2, Cert.ReferenceIdeal.RefValue.ref_eq _ _ _ _ _ (hty c)]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
